-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S1x512 : Shape := ⟨2, ![1, 512]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x512 .f32) (main_arg1 : IVec S2x3200000 32) (main_arg2 : FVec F S1x512 .f32) (main_arg3 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x512 : Shape := ⟨2, ![100000, 512]⟩
abbrev S2x3200000 : Shape := ⟨2, ![2, 3200000]⟩
abbrev S1x512 : Shape := ⟨2, ![1, 512]⟩
abbrev S1 : Shape := ⟨1, ![1]⟩
abbrev S_ : Shape := ⟨0, ![]⟩
abbrev S128x512 : Shape := ⟨2, ![128, 512]⟩
abbrev S512x128 : Shape := ⟨2, ![512, 128]⟩
abbrev S100000x128 : Shape := ⟨2, ![100000, 128]⟩
abbrev S2000x512 : Shape := ⟨2, ![2000, 512]⟩
abbrev S2000x128 : Shape := ⟨2, ![2000, 128]⟩
abbrev S100000x1 : Shape := ⟨2, ![100000, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S1x1 : Shape := ⟨2, ![1, 1]⟩

abbrev nBuf : Space → Nat
  | .hbm => 78
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S1x512, .f32⟩
  | .hbm, ⟨3, _⟩ => ⟨S1, .f32⟩
  | .hbm, ⟨4, _⟩ => ⟨S_, .f32⟩
  | .hbm, ⟨5, _⟩ => ⟨S128x512, .f32⟩
  | .hbm, ⟨6, _⟩ => ⟨S_, .i32⟩
  | .hbm, ⟨7, _⟩ => ⟨S1, .i32⟩
  | .hbm, ⟨8, _⟩ => ⟨S128x512, .f32⟩
  | .hbm, ⟨9, _⟩ => ⟨S512x128, .f32⟩
  | .hbm, ⟨10, _⟩ => ⟨S100000x128, .f32⟩
  | .hbm, ⟨11, _⟩ => ⟨S100000x1, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x1, .f32⟩
  | .hbm, ⟨61, _⟩ => ⟨S3300000x1, .f32⟩
  | .hbm, ⟨62, _⟩ => ⟨S3300000x1, .f32⟩
  | .hbm, ⟨63, _⟩ => ⟨S_, .f32⟩
  | .hbm, ⟨64, _⟩ => ⟨S100000x1, .f32⟩
  | .hbm, ⟨65, _⟩ => ⟨S3300000x1, .i32⟩
  | .hbm, ⟨66, _⟩ => ⟨S100000x1, .f32⟩
  | .hbm, ⟨67, _⟩ => ⟨S1x1, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128x512 : S_.BroadcastsInDim S128x512 (![] : Fin 0 → Fin S128x512.rank)
  bcast_S_S1 : S_.BroadcastsInDim S1 (![] : Fin 0 → Fin S1.rank)
  transposes_S128x512_S512x128_1_0 : S128x512.Transposes [1, 0] S512x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  slices_S100000x128_S100000x1_0_0 : S100000x128.Slices ![0, 0] S100000x1
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S128x512_S1_S1x512_01_n_0_0_wf : ScatterDims.WF S128x512 S1 S1x512 [0, 1] [] [0] 0
  dot_S2000x512_S512x128_S2000x128_1_0_0_1_n_n_wf : DotDims.WF S2000x512 S512x128 S2000x128 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)

variable [Facts₀]

def scatter_S128x512_S1_S1x512_01_n_0_0 : ScatterDims S128x512 S1 S1x512 where
  updateWindowDims := [0, 1]
  insertedWindowDims := []
  scatterDimsToOperandDims := [0]
  indexVectorDim := 0
  wf := scatter_S128x512_S1_S1x512_01_n_0_0_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S1x512 : Shape := ⟨2, ![1, 512]⟩
abbrev S1 : Shape := ⟨1, ![1]⟩
abbrev S512x1 : Shape := ⟨2, ![512, 1]⟩
abbrev S100000x1 : Shape := ⟨2, ![100000, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S1x512, .f32⟩
  | .hbm, ⟨3, _⟩ => ⟨S1, .f32⟩
  | .hbm, ⟨4, _⟩ => ⟨S512x1, .f32⟩
  | .hbm, ⟨5, _⟩ => ⟨S100000x1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x1, .f32⟩
  | .hbm, ⟨55, _⟩ => ⟨S3300000x1, .f32⟩
  | .hbm, ⟨56, _⟩ => ⟨S3300000x1, .f32⟩
  | .hbm, ⟨57, _⟩ => ⟨S_, .f32⟩
  | .hbm, ⟨58, _⟩ => ⟨S100000x1, .f32⟩
  | .hbm, ⟨59, _⟩ => ⟨S3300000x1, .i32⟩
  | .hbm, ⟨60, _⟩ => ⟨S100000x1, .f32⟩
  | .hbm, ⟨61, _⟩ => ⟨S1x1, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  transposes_S1x512_S512x1_1_0 : S1x512.Transposes [1, 0] S512x1
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x512_S512x1_S100000x1_1_0_0_1_n_n_wf : DotDims.WF S100000x512 S512x1 S100000x1 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.FrameK.lean ====
/-
  The frame of `Kernel`'s @main: six host operations build the padded, transposed weight (a 128 x 512 array of
  zeros whose row 0 is set to W, transposed to 512 x 128); ONE pipelined region multiplies each 2000-row block of x by
  it on the matrix unit; sixty-seven host operations after the region slice column 0 of the product and run the
  graph aggregation (degrees by a scatter-add of ones, their inverse square roots, two gathers, a scatter-add of the
  scaled rows, the bias, the logistic function). Every weakly fair execution terminates without a fault, the
  region's output array ends at the blocks the body stored, every other buffer at what the later host operations
  compute from that, and the four argument arrays are written by nobody.

  The body at one grid point loads its two input blocks whole, multiplies them, (loads the output block, a value it
  never uses,) and stores the product over the whole output block: so after the body the output's staging buffer is
  one piece, the product of the two input blocks, and the inputs' are as they were. The launch is the library's frame
  run for a region with host operations on both sides; what it asks of the later operations — they touch only
  unscoped TensorCore buffers, allocate nothing, and write neither an array of the region nor (for the frame) an
  argument — is decided reference by reference, each operation writing only its own result buffer.
  Stated at any float family `F`.
-/
import proofs.«177291_j58248346468474_1_alg».proof.Proof.Gen.Kernel.Launch
import proofs.«177291_j58248346468474_1_alg».proof.Proof.Gen.Kernel.Skeleton
import proofs.«177291_j58248346468474_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The three stretches of host operations after the region, in order: the slice of column 0 and the degree
    computation up to the inverse square root; the three operations of the outlined `where`; the gathers, the
    aggregation and the logistic function. -/
abbrev tailOps : List (List (HloOp τ sig (Elt F))) := [hostOps1, hostOps1_1, hostOps1_2]

/-- What core `c`'s TensorCore buffers hold when the region is entered: the launch contents after the six host
    operations that build the padded, transposed weight. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the six operations, the region, and the three later stretches: it reduces to the region continued by
    those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later operations touch unscoped TensorCore buffers only: the region's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ### Who writes what

Each host operation writes exactly its own result buffer, and no result buffer is an argument of @main, the
transposed weight or the region's output: a conjunction of inequalities between references, one per operation. -/

/-- `b` is written by no operation of the line. -/
abbrev Unwritten (b : Ref sig .tc) (ops : List (HloOp τ sig (Elt F))) : Prop :=
  ops.Forall fun op => Proc.devRef (τ := τ) .tc b ∉ op.writes

/-- Decides `Unwritten b ops` for a literal line: the line's operations one by one, each one's written set a
    singleton, two references told apart by evaluation. -/
local macro "unwritten" l:ident : tactic => `(tactic| (
  simp only [Unwritten, $l:ident, List.Forall, StableHlo.TRef.unary, StableHlo.TRef.ternary, StableHlo.nullary_writes, StableHlo.unary_writes, StableHlo.binary_writes,
    StableHlo.ternary_writes, StableHlo.reshape_writes, Finset.mem_singleton]
  repeat' apply And.intro
  all_goals exact StableHlo.devRef_ne_of_ne (by decide)))

set_option maxHeartbeats 2000000 in
theorem pre_arg0 : Unwritten (F := F) main_arg0 hostOps0 := by unwritten hostOps0
set_option maxHeartbeats 2000000 in
theorem pre_arg1 : Unwritten (F := F) main_arg1 hostOps0 := by unwritten hostOps0
set_option maxHeartbeats 2000000 in
theorem pre_arg2 : Unwritten (F := F) main_arg2 hostOps0 := by unwritten hostOps0
set_option maxHeartbeats 2000000 in
theorem pre_arg3 : Unwritten (F := F) main_arg3 hostOps0 := by unwritten hostOps0

set_option maxHeartbeats 2000000 in
theorem t1_arg0 : Unwritten (F := F) main_arg0 hostOps1 := by unwritten hostOps1
set_option maxHeartbeats 2000000 in
theorem t1_arg1 : Unwritten (F := F) main_arg1 hostOps1 := by unwritten hostOps1
set_option maxHeartbeats 2000000 in
theorem t1_arg2 : Unwritten (F := F) main_arg2 hostOps1 := by unwritten hostOps1
set_option maxHeartbeats 2000000 in
theorem t1_arg3 : Unwritten (F := F) main_arg3 hostOps1 := by unwritten hostOps1
set_option maxHeartbeats 2000000 in
theorem t1_v3 : Unwritten (F := F) main_v3 hostOps1 := by unwritten hostOps1
set_option maxHeartbeats 2000000 in
theorem t1_v4 : Unwritten (F := F) main_v4 hostOps1 := by unwritten hostOps1

set_option maxHeartbeats 2000000 in
theorem t2_arg0 : Unwritten (F := F) main_arg0 hostOps1_1 := by unwritten hostOps1_1
set_option maxHeartbeats 2000000 in
theorem t2_arg1 : Unwritten (F := F) main_arg1 hostOps1_1 := by unwritten hostOps1_1
set_option maxHeartbeats 2000000 in
theorem t2_arg2 : Unwritten (F := F) main_arg2 hostOps1_1 := by unwritten hostOps1_1
set_option maxHeartbeats 2000000 in
theorem t2_arg3 : Unwritten (F := F) main_arg3 hostOps1_1 := by unwritten hostOps1_1
set_option maxHeartbeats 2000000 in
theorem t2_v3 : Unwritten (F := F) main_v3 hostOps1_1 := by unwritten hostOps1_1
set_option maxHeartbeats 2000000 in
theorem t2_v4 : Unwritten (F := F) main_v4 hostOps1_1 := by unwritten hostOps1_1

set_option maxHeartbeats 4000000 in
theorem t3_arg0 : Unwritten (F := F) main_arg0 hostOps1_2 := by unwritten hostOps1_2
set_option maxHeartbeats 4000000 in
theorem t3_arg1 : Unwritten (F := F) main_arg1 hostOps1_2 := by unwritten hostOps1_2
set_option maxHeartbeats 4000000 in
theorem t3_arg2 : Unwritten (F := F) main_arg2 hostOps1_2 := by unwritten hostOps1_2
set_option maxHeartbeats 4000000 in
theorem t3_arg3 : Unwritten (F := F) main_arg3 hostOps1_2 := by unwritten hostOps1_2
set_option maxHeartbeats 4000000 in
theorem t3_v3 : Unwritten (F := F) main_v3 hostOps1_2 := by unwritten hostOps1_2
set_option maxHeartbeats 4000000 in
theorem t3_v4 : Unwritten (F := F) main_v4 hostOps1_2 := by unwritten hostOps1_2

/-- A reference no stretch writes is written by no operation of the three stretches laid end to end. -/
theorem unwritten_tail {b : Ref sig .tc} (h1 : Unwritten (F := F) b hostOps1) (h2 : Unwritten (F := F) b hostOps1_1)
    (h3 : Unwritten (F := F) b hostOps1_2) :
    ∀ op ∈ (tailOps (F := F)).flatten, Proc.devRef (τ := τ) .tc b ∉ op.writes := by
  intro op hop
  simp only [tailOps, List.flatten_cons, List.flatten_nil, List.append_nil, List.mem_append] at hop
  rcases hop with hop | hop | hop
  · exact (List.forall_iff_forall_mem.mp h1) op hop
  · exact (List.forall_iff_forall_mem.mp h2) op hop
  · exact (List.forall_iff_forall_mem.mp h3) op hop

/-- The later operations write no array of the region (x, the transposed weight, the product). -/
theorem tail_keeps : ∀ ops ∈ (tailOps : List (List (HloOp τ sig (Elt F)))), ∀ op ∈ ops,
    ∀ w, Proc.devRef .tc (Pipeline.arrRef spec0 w) ∉ op.writes := by
  intro ops hops op hop w
  simp only [tailOps, List.mem_cons, List.mem_nil_iff, or_false] at hops
  rcases hops with rfl | rfl | rfl
  · fin_cases w
    · exact (List.forall_iff_forall_mem.mp t1_arg0) op hop
    · exact (List.forall_iff_forall_mem.mp t1_v3) op hop
    · exact (List.forall_iff_forall_mem.mp t1_v4) op hop
  · fin_cases w
    · exact (List.forall_iff_forall_mem.mp t2_arg0) op hop
    · exact (List.forall_iff_forall_mem.mp t2_v3) op hop
    · exact (List.forall_iff_forall_mem.mp t2_v4) op hop
  · fin_cases w
    · exact (List.forall_iff_forall_mem.mp t3_arg0) op hop
    · exact (List.forall_iff_forall_mem.mp t3_v3) op hop
    · exact (List.forall_iff_forall_mem.mp t3_v4) op hop

/-- The region finds each argument as launched. -/
theorem V_of_unwritten {b : Ref sig .tc} (h : Unwritten (F := F) b hostOps0) (c : Dev nD) :
    V m c b = m ((c : Thread nD τ).loc b) :=
  StableHlo.after_of_forall_not_mem (b := Proc.devRef .tc b) _ _ (by
    simp only [List.flatten_cons, List.flatten_nil, List.append_nil]
    exact List.forall_iff_forall_mem.mp h)
theorem V_main_arg0 (c : Dev nD) : V m c main_arg0 = m ((c : Thread nD τ).loc main_arg0) := V_of_unwritten m pre_arg0 c
theorem V_main_arg1 (c : Dev nD) : V m c main_arg1 = m ((c : Thread nD τ).loc main_arg1) := V_of_unwritten m pre_arg1 c
theorem V_main_arg2 (c : Dev nD) : V m c main_arg2 = m ((c : Thread nD τ).loc main_arg2) := V_of_unwritten m pre_arg2 c
theorem V_main_arg3 (c : Dev nD) : V m c main_arg3 = m ((c : Thread nD τ).loc main_arg3) := V_of_unwritten m pre_arg3 c

/-- A buffer that is no array of the region and that no later operation writes ends as the region found it. -/
theorem tail_of_unwritten (dats : (p : Fin _) → (c : Dev nD) → Dat τ (Elt F) Unit ℕ (UR sig nD τ) ℕ (cfgs p) c) (c : Dev nD)
    {b : Ref sig .tc} (hb : ∀ w, Pipeline.arrRef spec0 w ≠ b)
    (h1 : Unwritten (F := F) b hostOps1) (h2 : Unwritten (F := F) b hostOps1_1) (h3 : Unwritten (F := F) b hostOps1_2) :
    Pipeline.afterTail₀ cfgs dats 0 (V0 m) tailOps c b = V m c b := by
  unfold Pipeline.afterTail₀
  rw [StableHlo.after_of_forall_not_mem (b := Proc.devRef .tc b) _ _ (unwritten_tail h1 h2 h3),
    Pipeline.withArrays_of_ne _ c (V0 m c) _ b hb]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not (the
    weight's block index never moves, so it is fetched once), for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The whole 2000 x 512 block of x, the whole 512 x 128 weight, the whole 2000 x 128 output block. -/
abbrev rX : Rect S2000x512 := Rect.unit (s := S2000x512) ![0, 0] S2000x512.size inb_S2000x512_S2000x512_0_0
abbrev rW : Rect S512x128 := Rect.unit (s := S512x128) ![0, 0] S512x128.size inb_S512x128_S512x128_0_0
abbrev rO : Rect S2000x128 := Rect.unit (s := S2000x128) ![0, 0] S2000x128.size inb_S2000x128_S2000x128_0_0

/-- The output block after the body: one piece over the whole block, the matrix product of the two input blocks. -/
def prodBlock (x0 : Vec F S2000x512 .f32) (x1 : Vec F S512x128 .f32) : Vec F S2000x128 .f32 :=
  View.canon [⟨rO, k0_pay1 (View.ld x0 rX) (View.ld x1 rW)⟩]

/-- The one store covers the block. -/
theorem prodBlock_cover (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-! ## The body's triple -/

set_option maxHeartbeats 4000000 in
/-- The body on whole staging memrefs, the inputs' at contents `x0`, `x1` and the output's at anything, runs to the
    continuation with the inputs' as they were and the output's at the product block. -/
theorem sound_kernel (c : Dev nD) (E : Set ℕ) (i : grid0.Coords) (arg1 : Memref sig .tc .vmem S2000x512 .f32) (harg1 : arg1.IsWhole) (arg2 : Memref sig .tc .vmem S512x128 .f32) (harg2 : arg2.IsWhole) (arg3 : Memref sig .tc .vmem S2000x128 .f32) (harg3 : arg3.IsWhole)
    (x0 : Vec F S2000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodBlock_cover _)

/-! ## The pipeline's proof data -/

/-- On core `c`: the arrays as the region finds them; after the body at point `t` each input's buffer at its block
    and the output's at the product of the two; the invariant holds the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prodBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = prodBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    library computes from the proof data (x and the weight as found, the product array at the blocks the body
    stored) and every other unscoped buffer at what the later operations compute from the region's exit. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- In a state the frame run ends in, the four arguments are as launched: x is an input array of the region, kept by
    the region and written by no later operation; the edge list, W and the bias bypass the region and are written
    by nobody. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans ((((dats m 0 c)).arrAt_in 0 rfl _).trans ((A_eq m c 0).trans (V_main_arg0 m c))),
   (((h c).2 main_arg1 (Pipeline.mem_restRefs_of main_arg1 (by decide) (by decide))).trans
      (tail_of_unwritten m (dats m) c (by decide) t1_arg1 t2_arg1 t3_arg1)).trans (V_main_arg1 m c),
   (((h c).2 main_arg2 (Pipeline.mem_restRefs_of main_arg2 (by decide) (by decide))).trans
      (tail_of_unwritten m (dats m) c (by decide) t1_arg2 t2_arg2 t3_arg2)).trans (V_main_arg2 m c),
   (((h c).2 main_arg3 (Pipeline.mem_restRefs_of main_arg3 (by decide) (by decide))).trans
      (tail_of_unwritten m (dats m) c (by decide) t1_arg3 t2_arg3 t3_arg3)).trans (V_main_arg3 m c)⟩

/-- The frame: every weakly fair execution terminates and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.Kernel.Frame

end
-- ==== Proof.FrameKI.lean ====
/-
  The frame of `KernelIdeal`'s @main: six host operations build the padded, transposed weight (a 128 x 512 array of
  zeros whose row 0 is set to W, transposed to 512 x 128); ONE pipelined region multiplies each 2000-row block of x by
  it on the matrix unit; sixty-seven host operations after the region slice column 0 of the product and run the
  graph aggregation (degrees by a scatter-add of ones, their inverse square roots, two gathers, a scatter-add of the
  scaled rows, the bias, the logistic function). Every weakly fair execution terminates without a fault, the
  region's output array ends at the blocks the body stored, every other buffer at what the later host operations
  compute from that, and the four argument arrays are written by nobody.

  The body at one grid point loads its two input blocks whole, multiplies them, (loads the output block, a value it
  never uses,) and stores the product over the whole output block: so after the body the output's staging buffer is
  one piece, the product of the two input blocks, and the inputs' are as they were. The launch is the library's frame
  run for a region with host operations on both sides; what it asks of the later operations — they touch only
  unscoped TensorCore buffers, allocate nothing, and write neither an array of the region nor (for the frame) an
  argument — is decided reference by reference, each operation writing only its own result buffer.
  Stated at any float family `F`.
-/
import proofs.«177291_j58248346468474_1_alg».proof.Proof.Gen.KernelIdeal.Launch
import proofs.«177291_j58248346468474_1_alg».proof.Proof.Gen.KernelIdeal.Skeleton
import proofs.«177291_j58248346468474_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The three stretches of host operations after the region, in order: the slice of column 0 and the degree
    computation up to the inverse square root; the three operations of the outlined `where`; the gathers, the
    aggregation and the logistic function. -/
abbrev tailOps : List (List (HloOp τ sig (Elt F))) := [hostOps1, hostOps1_1, hostOps1_2]

/-- What core `c`'s TensorCore buffers hold when the region is entered: the launch contents after the six host
    operations that build the padded, transposed weight. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the six operations, the region, and the three later stretches: it reduces to the region continued by
    those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later operations touch unscoped TensorCore buffers only: the region's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ### Who writes what

Each host operation writes exactly its own result buffer, and no result buffer is an argument of @main, the
transposed weight or the region's output: a conjunction of inequalities between references, one per operation. -/

/-- `b` is written by no operation of the line. -/
abbrev Unwritten (b : Ref sig .tc) (ops : List (HloOp τ sig (Elt F))) : Prop :=
  ops.Forall fun op => Proc.devRef (τ := τ) .tc b ∉ op.writes

/-- Decides `Unwritten b ops` for a literal line: the line's operations one by one, each one's written set a
    singleton, two references told apart by evaluation. -/
local macro "unwritten" l:ident : tactic => `(tactic| (
  simp only [Unwritten, $l:ident, List.Forall, StableHlo.TRef.unary, StableHlo.TRef.ternary, StableHlo.nullary_writes, StableHlo.unary_writes, StableHlo.binary_writes,
    StableHlo.ternary_writes, StableHlo.reshape_writes, Finset.mem_singleton]
  repeat' apply And.intro
  all_goals exact StableHlo.devRef_ne_of_ne (by decide)))

set_option maxHeartbeats 2000000 in
theorem pre_arg0 : Unwritten (F := F) main_arg0 hostOps0 := by unwritten hostOps0
set_option maxHeartbeats 2000000 in
theorem pre_arg1 : Unwritten (F := F) main_arg1 hostOps0 := by unwritten hostOps0
set_option maxHeartbeats 2000000 in
theorem pre_arg2 : Unwritten (F := F) main_arg2 hostOps0 := by unwritten hostOps0
set_option maxHeartbeats 2000000 in
theorem pre_arg3 : Unwritten (F := F) main_arg3 hostOps0 := by unwritten hostOps0

set_option maxHeartbeats 2000000 in
theorem t1_arg0 : Unwritten (F := F) main_arg0 hostOps1 := by unwritten hostOps1
set_option maxHeartbeats 2000000 in
theorem t1_arg1 : Unwritten (F := F) main_arg1 hostOps1 := by unwritten hostOps1
set_option maxHeartbeats 2000000 in
theorem t1_arg2 : Unwritten (F := F) main_arg2 hostOps1 := by unwritten hostOps1
set_option maxHeartbeats 2000000 in
theorem t1_arg3 : Unwritten (F := F) main_arg3 hostOps1 := by unwritten hostOps1
set_option maxHeartbeats 2000000 in
theorem t1_v3 : Unwritten (F := F) main_v3 hostOps1 := by unwritten hostOps1
set_option maxHeartbeats 2000000 in
theorem t1_v4 : Unwritten (F := F) main_v4 hostOps1 := by unwritten hostOps1

set_option maxHeartbeats 2000000 in
theorem t2_arg0 : Unwritten (F := F) main_arg0 hostOps1_1 := by unwritten hostOps1_1
set_option maxHeartbeats 2000000 in
theorem t2_arg1 : Unwritten (F := F) main_arg1 hostOps1_1 := by unwritten hostOps1_1
set_option maxHeartbeats 2000000 in
theorem t2_arg2 : Unwritten (F := F) main_arg2 hostOps1_1 := by unwritten hostOps1_1
set_option maxHeartbeats 2000000 in
theorem t2_arg3 : Unwritten (F := F) main_arg3 hostOps1_1 := by unwritten hostOps1_1
set_option maxHeartbeats 2000000 in
theorem t2_v3 : Unwritten (F := F) main_v3 hostOps1_1 := by unwritten hostOps1_1
set_option maxHeartbeats 2000000 in
theorem t2_v4 : Unwritten (F := F) main_v4 hostOps1_1 := by unwritten hostOps1_1

set_option maxHeartbeats 4000000 in
theorem t3_arg0 : Unwritten (F := F) main_arg0 hostOps1_2 := by unwritten hostOps1_2
set_option maxHeartbeats 4000000 in
theorem t3_arg1 : Unwritten (F := F) main_arg1 hostOps1_2 := by unwritten hostOps1_2
set_option maxHeartbeats 4000000 in
theorem t3_arg2 : Unwritten (F := F) main_arg2 hostOps1_2 := by unwritten hostOps1_2
set_option maxHeartbeats 4000000 in
theorem t3_arg3 : Unwritten (F := F) main_arg3 hostOps1_2 := by unwritten hostOps1_2
set_option maxHeartbeats 4000000 in
theorem t3_v3 : Unwritten (F := F) main_v3 hostOps1_2 := by unwritten hostOps1_2
set_option maxHeartbeats 4000000 in
theorem t3_v4 : Unwritten (F := F) main_v4 hostOps1_2 := by unwritten hostOps1_2

/-- A reference no stretch writes is written by no operation of the three stretches laid end to end. -/
theorem unwritten_tail {b : Ref sig .tc} (h1 : Unwritten (F := F) b hostOps1) (h2 : Unwritten (F := F) b hostOps1_1)
    (h3 : Unwritten (F := F) b hostOps1_2) :
    ∀ op ∈ (tailOps (F := F)).flatten, Proc.devRef (τ := τ) .tc b ∉ op.writes := by
  intro op hop
  simp only [tailOps, List.flatten_cons, List.flatten_nil, List.append_nil, List.mem_append] at hop
  rcases hop with hop | hop | hop
  · exact (List.forall_iff_forall_mem.mp h1) op hop
  · exact (List.forall_iff_forall_mem.mp h2) op hop
  · exact (List.forall_iff_forall_mem.mp h3) op hop

/-- The later operations write no array of the region (x, the transposed weight, the product). -/
theorem tail_keeps : ∀ ops ∈ (tailOps : List (List (HloOp τ sig (Elt F)))), ∀ op ∈ ops,
    ∀ w, Proc.devRef .tc (Pipeline.arrRef spec0 w) ∉ op.writes := by
  intro ops hops op hop w
  simp only [tailOps, List.mem_cons, List.mem_nil_iff, or_false] at hops
  rcases hops with rfl | rfl | rfl
  · fin_cases w
    · exact (List.forall_iff_forall_mem.mp t1_arg0) op hop
    · exact (List.forall_iff_forall_mem.mp t1_v3) op hop
    · exact (List.forall_iff_forall_mem.mp t1_v4) op hop
  · fin_cases w
    · exact (List.forall_iff_forall_mem.mp t2_arg0) op hop
    · exact (List.forall_iff_forall_mem.mp t2_v3) op hop
    · exact (List.forall_iff_forall_mem.mp t2_v4) op hop
  · fin_cases w
    · exact (List.forall_iff_forall_mem.mp t3_arg0) op hop
    · exact (List.forall_iff_forall_mem.mp t3_v3) op hop
    · exact (List.forall_iff_forall_mem.mp t3_v4) op hop

/-- The region finds each argument as launched. -/
theorem V_of_unwritten {b : Ref sig .tc} (h : Unwritten (F := F) b hostOps0) (c : Dev nD) :
    V m c b = m ((c : Thread nD τ).loc b) :=
  StableHlo.after_of_forall_not_mem (b := Proc.devRef .tc b) _ _ (by
    simp only [List.flatten_cons, List.flatten_nil, List.append_nil]
    exact List.forall_iff_forall_mem.mp h)
theorem V_main_arg0 (c : Dev nD) : V m c main_arg0 = m ((c : Thread nD τ).loc main_arg0) := V_of_unwritten m pre_arg0 c
theorem V_main_arg1 (c : Dev nD) : V m c main_arg1 = m ((c : Thread nD τ).loc main_arg1) := V_of_unwritten m pre_arg1 c
theorem V_main_arg2 (c : Dev nD) : V m c main_arg2 = m ((c : Thread nD τ).loc main_arg2) := V_of_unwritten m pre_arg2 c
theorem V_main_arg3 (c : Dev nD) : V m c main_arg3 = m ((c : Thread nD τ).loc main_arg3) := V_of_unwritten m pre_arg3 c

/-- A buffer that is no array of the region and that no later operation writes ends as the region found it. -/
theorem tail_of_unwritten (dats : (p : Fin _) → (c : Dev nD) → Dat τ (Elt F) Unit ℕ (UR sig nD τ) ℕ (cfgs p) c) (c : Dev nD)
    {b : Ref sig .tc} (hb : ∀ w, Pipeline.arrRef spec0 w ≠ b)
    (h1 : Unwritten (F := F) b hostOps1) (h2 : Unwritten (F := F) b hostOps1_1) (h3 : Unwritten (F := F) b hostOps1_2) :
    Pipeline.afterTail₀ cfgs dats 0 (V0 m) tailOps c b = V m c b := by
  unfold Pipeline.afterTail₀
  rw [StableHlo.after_of_forall_not_mem (b := Proc.devRef .tc b) _ _ (unwritten_tail h1 h2 h3),
    Pipeline.withArrays_of_ne _ c (V0 m c) _ b hb]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not (the
    weight's block index never moves, so it is fetched once), for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The whole 2000 x 512 block of x, the whole 512 x 128 weight, the whole 2000 x 128 output block. -/
abbrev rX : Rect S2000x512 := Rect.unit (s := S2000x512) ![0, 0] S2000x512.size inb_S2000x512_S2000x512_0_0
abbrev rW : Rect S512x128 := Rect.unit (s := S512x128) ![0, 0] S512x128.size inb_S512x128_S512x128_0_0
abbrev rO : Rect S2000x128 := Rect.unit (s := S2000x128) ![0, 0] S2000x128.size inb_S2000x128_S2000x128_0_0

/-- The output block after the body: one piece over the whole block, the matrix product of the two input blocks. -/
def prodBlock (x0 : Vec F S2000x512 .f32) (x1 : Vec F S512x128 .f32) : Vec F S2000x128 .f32 :=
  View.canon [⟨rO, k0_pay1 (View.ld x0 rX) (View.ld x1 rW)⟩]

/-- The one store covers the block. -/
theorem prodBlock_cover (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

/-! ## The body's triple -/

set_option maxHeartbeats 4000000 in
/-- The body on whole staging memrefs, the inputs' at contents `x0`, `x1` and the output's at anything, runs to the
    continuation with the inputs' as they were and the output's at the product block. -/
theorem sound_kernel (c : Dev nD) (E : Set ℕ) (i : grid0.Coords) (arg1 : Memref sig .tc .vmem S2000x512 .f32) (harg1 : arg1.IsWhole) (arg2 : Memref sig .tc .vmem S512x128 .f32) (harg2 : arg2.IsWhole) (arg3 : Memref sig .tc .vmem S2000x128 .f32) (harg3 : arg3.IsWhole)
    (x0 : Vec F S2000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodBlock_cover _)

/-! ## The pipeline's proof data -/

/-- On core `c`: the arrays as the region finds them; after the body at point `t` each input's buffer at its block
    and the output's at the product of the two; the invariant holds the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prodBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = prodBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    library computes from the proof data (x and the weight as found, the product array at the blocks the body
    stored) and every other unscoped buffer at what the later operations compute from the region's exit. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- In a state the frame run ends in, the four arguments are as launched: x is an input array of the region, kept by
    the region and written by no later operation; the edge list, W and the bias bypass the region and are written
    by nobody. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans ((((dats m 0 c)).arrAt_in 0 rfl _).trans ((A_eq m c 0).trans (V_main_arg0 m c))),
   (((h c).2 main_arg1 (Pipeline.mem_restRefs_of main_arg1 (by decide) (by decide))).trans
      (tail_of_unwritten m (dats m) c (by decide) t1_arg1 t2_arg1 t3_arg1)).trans (V_main_arg1 m c),
   (((h c).2 main_arg2 (Pipeline.mem_restRefs_of main_arg2 (by decide) (by decide))).trans
      (tail_of_unwritten m (dats m) c (by decide) t1_arg2 t2_arg2 t3_arg2)).trans (V_main_arg2 m c),
   (((h c).2 main_arg3 (Pipeline.mem_restRefs_of main_arg3 (by decide) (by decide))).trans
      (tail_of_unwritten m (dats m) c (by decide) t1_arg3 t2_arg3 t3_arg3)).trans (V_main_arg3 m c)⟩

/-- The frame: every weakly fair execution terminates and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.KernelIdeal.Frame

end
-- ==== Proof.RefTail.lean ====
/-
  The graph aggregation that both programs run on the projected features, as ONE function.

  From the edge list e (two rows of 3,200,000 node numbers) and a column h of 100,000 projected features:
  append a self loop per node to the sources (`rowIdx`) and to the targets (`colIdx`); the degree of a node is the
  number of edges whose target it is (a scatter-add of ones, `deg`); `dinv` is its inverse square root where the
  degree is positive and 0 elsewhere; an edge's weight is dinv at its source times dinv at its target (`norm`,
  two gathers, a negative node number counted from the end as jnp indexing does: `wrap`); the message of an edge is
  h at its source times its weight (`msg`); a node sums the messages of the edges that target it (`agg`, the second
  scatter-add); the result is the logistic function of that sum plus the bias b, spelt 1 / (1 + exp (-(agg + b))).

  The reference applies this to x · Wᵀ (one `dot_general`): its run's result term is literally `gcnTail` of that
  product (`ref_result`). The kernel's program applies the same operations to column 0 of the array its region
  leaves, so the two results are equal as soon as the two columns are: nothing here is ever opened.
-/
import proofs.«177291_j58248346468474_1_alg».proof.Proof.RefRunP

noncomputable section

namespace Cert.Gcn

open Idealize.ShloMosaic Idealize.ShloMosaic.TcCoe Idealize.SL.Sem Cert.ReferenceIdeal Cert.ReferenceIdeal.Gen

variable {F : FTy → Type} [FloatOps F]

/-- The edge list, as @main takes it. -/
abbrev Edges (F : FTy → Type) : Type := (⟨S2x3200000, .i32⟩ : BufTy).Contents (Elt F)
/-- One node number per edge and per self loop. -/
abbrev EdgeWords (F : FTy → Type) : Type := (⟨S3300000, .i32⟩ : BufTy).Contents (Elt F)

/-- The sources: row 0 of the edge list, then every node once (the self loops). -/
def rowIdx (e : Edges F) : EdgeWords F :=
  concatenate S3300000 0 [⟨S3200000, (shapeCast S3200000 (extractStridedSlice S1x3200000 ![0, 0] e slices_S2x3200000_S1x3200000_0_0) shapeCasts_S1x3200000_S3200000)⟩, ⟨S100000, (iotaInDim S100000 32 0)⟩] concatenates_S3200000_S100000_S3300000_d0

/-- The targets: row 1 of the edge list, then every node once. -/
def colIdx (e : Edges F) : EdgeWords F :=
  concatenate S3300000 0 [⟨S3200000, (shapeCast S3200000 (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end: v + 100000 where v < 0, else v. -/
def wrap (v : EdgeWords F) : EdgeWords F :=
  select (cmpi .slt v (broadcastInDim S3300000 ![] bcast_S_S3300000 (constantI S_ 32 0#32))) (addi v (broadcastInDim S3300000 ![] bcast_S_S3300000 (constantI S_ 32 100000#32))) v

/-- The number of edges (self loops included) that target each node. -/
def deg (e : Edges F) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (colIdx e)) (broadcastInDim S3300000 ![] bcast_S_S3300000 (constant S_ .f32 0x3F800000#32))

/-- Its inverse square root where it is positive, 0 elsewhere. -/
def dinv (e : Edges F) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- An edge's weight: dinv at its source times dinv at its target. -/
def norm (e : Edges F) : (⟨S3300000, .f32⟩ : BufTy).Contents (Elt F) :=
  mulf (Host.gather gather_S100000_S3300000x1_S3300000_n_0_n_n_0_1_1 (dinv e) (broadcastInDim S3300000x1 ![0] bcast_S3300000_S3300000x1_0 (wrap (rowIdx e)))) (Host.gather gather_S100000_S3300000x1_S3300000_n_0_n_n_0_1_1 (dinv e) (broadcastInDim S3300000x1 ![0] bcast_S3300000_S3300000x1_0 (wrap (colIdx e))))

/-- An edge's message: the feature at its source times its weight. -/
def msg (h : (⟨S100000x1, .f32⟩ : BufTy).Contents (Elt F)) (e : Edges F) : (⟨S3300000x1, .f32⟩ : BufTy).Contents (Elt F) :=
  mulf (Host.gather gather_S100000x1_S3300000x1_S3300000x1_1_0_n_n_0_1_11 h (broadcastInDim S3300000x1 ![0] bcast_S3300000_S3300000x1_0 (wrap (rowIdx e)))) (broadcastInDim S3300000x1 ![0] bcast_S3300000_S3300000x1_0 (norm e))

/-- A node's sum of the messages of the edges that target it. -/
def agg (h : (⟨S100000x1, .f32⟩ : BufTy).Contents (Elt F)) (e : Edges F) : (⟨S100000x1, .f32⟩ : BufTy).Contents (Elt F) :=
  Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 (colIdx e)) (msg h e)

/-- The layer's output from the projected features h: the logistic function of the aggregate plus the bias. -/
def gcnTail (h : (⟨S100000x1, .f32⟩ : BufTy).Contents (Elt F)) (e : Edges F) (b : (⟨S1, .f32⟩ : BufTy).Contents (Elt F)) :
    (⟨S100000x1, .f32⟩ : BufTy).Contents (Elt F) :=
  Host.divf (broadcastInDim S100000x1 ![] bcast_S_S100000x1 (constant S_ .f32 0x3F800000#32)) (addf (broadcastInDim S100000x1 ![] bcast_S_S100000x1 (constant S_ .f32 0x3F800000#32)) (Host.exp (Host.negf (addf (agg h e) (broadcastInDim S100000x1 ![0, 1] bcast_S1x1_S100000x1_0_1 (broadcastInDim S1x1 ![1] bcast_S1_S1x1_1 b))))))

/-- The reference's projection: x · Wᵀ, one `dot_general` against the transposed weight. -/
def refProj (x : (⟨S100000x512, .f32⟩ : BufTy).Contents (Elt F)) (W : (⟨S1x512, .f32⟩ : BufTy).Contents (Elt F)) :
    (⟨S100000x1, .f32⟩ : BufTy).Contents (Elt F) :=
  Host.dotGeneral dot_S100000x512_S512x1_S100000x1_1_0_0_1_n_n none x (transpose S512x1 [1, 0] W transposes_S1x512_S512x1_1_0)

set_option maxRecDepth 16384 in
/-- The reference's result is the aggregation of its projection: its run's composed term, with each repeated
    stretch folded back into the stage that names it. -/
theorem ref_result (m : (ℓ : Loc nD τ sig) → Buf (Elt F) ℓ) (c : Dev nD) :
    Cert.ReferenceIdeal.ValueP.res_main_v52 m c
      = gcnTail (refProj (m ((c.tc : Thread nD τ).loc main_arg0)) (m ((c.tc : Thread nD τ).loc main_arg2)))
          (m ((c.tc : Thread nD τ).loc main_arg1)) (m ((c.tc : Thread nD τ).loc main_arg3)) := by
  unfold Cert.ReferenceIdeal.ValueP.res_main_v52 gcnTail agg msg norm dinv deg wrap rowIdx colIdx refProj
  rfl

end Cert.Gcn

end
-- ==== Proof.KernelTail.lean ====
/-
  What the kernel's program returns, from what its region leaves: the sixty-seven host operations after the region,
  read back, are the graph aggregation `gcnTail` applied to column 0 of the region's output array, the edge list
  and the bias.

  The first nineteen of them (up to the inverse square root of the degrees) are read first, at any contents of the
  buffers they start from: they leave the column slice, the two edge-end lists with their self loops, the positivity
  mask and the inverse square root of the degrees, a zero, and the bias untouched. The remaining forty-eight — the
  three of the outlined `where`, the gathers, the scatter-add and the logistic function — read only those.
-/
import proofs.«177291_j58248346468474_1_alg».proof.Proof.FrameKI
import proofs.«177291_j58248346468474_1_alg».proof.Proof.RefTail
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The first nineteen operations, from any contents -/

section Stage1
variable (W : Valuation τ sig (Elt F))

/-- Column 0 of the region's output array. -/
theorem stage1_col : StableHlo.after hostOps1 W (Proc.devRef .tc main_v5)
    = extractStridedSlice S100000x1 ![0, 0] (W (Proc.devRef .tc main_v4)) slices_S100000x128_S100000x1_0_0 := by
  simp only [hostOps1]; after_results
/-- The sources with their self loops. -/
theorem stage1_rows : StableHlo.after hostOps1 W (Proc.devRef .tc main_v9) = Cert.Gcn.rowIdx (W (Proc.devRef .tc main_arg1)) := by
  simp only [hostOps1]; after_results; rfl
/-- The targets with their self loops. -/
theorem stage1_cols : StableHlo.after hostOps1 W (Proc.devRef .tc main_v12) = Cert.Gcn.colIdx (W (Proc.devRef .tc main_arg1)) := by
  simp only [hostOps1]; after_results; rfl
/-- Where the degree is positive. -/
theorem stage1_pos : StableHlo.after hostOps1 W (Proc.devRef .tc main_v18)
    = cmpf (F := F) .ogt (Cert.Gcn.deg (W (Proc.devRef .tc main_arg1))) (broadcastInDim S100000 ![] bcast_S_S100000 (constant S_ .f32 0x00000000#32)) := by
  simp only [hostOps1]; after_results; rfl
/-- The inverse square root of the degree. -/
theorem stage1_rsqrt : StableHlo.after hostOps1 W (Proc.devRef .tc main_v19) = Host.rsqrt (Cert.Gcn.deg (W (Proc.devRef .tc main_arg1))) := by
  simp only [hostOps1]; after_results; rfl
/-- The zero the `where` falls back on. -/
theorem stage1_zero : StableHlo.after hostOps1 W (Proc.devRef .tc main_cst_3) = constant (F := F) S_ .f32 0x00000000#32 := by
  simp only [hostOps1]; after_results
/-- The bias is not written. -/
theorem stage1_bias : StableHlo.after hostOps1 W (Proc.devRef .tc main_arg3) = W (Proc.devRef .tc main_arg3) := by
  simp only [hostOps1]; after_results

end Stage1

variable (m : (ℓ : Loc nD τ sig) → Buf (Elt F) ℓ)

/-- Column 0 of the region's output array after the run. -/
abbrev hcol (c : Dev nD) : (⟨S100000x1, .f32⟩ : BufTy).Contents (Elt F) :=
  extractStridedSlice S100000x1 ![0, 0] ((dats m 0 c).arrAt 2 cfg0.N : S100000x128.Idx → Elt F .f32) slices_S100000x128_S100000x1_0_0

set_option maxHeartbeats 4000000 in
/-- The result buffer after the later host operations. -/
theorem kernel_result (c : Dev nD) :
    Pipeline.afterTail₀ cfgs (dats m) 0 (V0 m) tailOps c main_v56
      = Cert.Gcn.gcnTail (hcol m c) (m ((c.tc : Thread nD τ).loc main_arg1)) (m ((c.tc : Thread nD τ).loc main_arg3)) := by
  unfold Pipeline.afterTail₀
  have hv4 : Pipeline.withArrays (cfgs 0).spec c (V0 m c) (fun w => (dats m 0 c).arrAt w (cfgs 0).N) (Proc.devRef .tc main_v4)
      = ((dats m 0 c).arrAt 2 cfg0.N : S100000x128.Idx → Elt F .f32) :=
    Pipeline.withArrays_arr spec0 launch0.win.arr_inj c _ _ 2
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne spec0 c (V0 m c) _ main_arg1 (by decide)).trans (V_main_arg1 m c)
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne spec0 c (V0 m c) _ main_arg3 (by decide)).trans (V_main_arg3 m c)
  generalize Pipeline.withArrays (cfgs 0).spec c (V0 m c) (fun w => (dats m 0 c).arrAt w (cfgs 0).N) = W at hv4 h1 h3 ⊢
  simp only [tailOps, List.flatten_cons, List.flatten_nil, List.append_nil]
  rw [StableHlo.after_append]
  have f5 := stage1_col W
  have f9 := stage1_rows W
  have f12 := stage1_cols W
  have f18 := stage1_pos W
  have f19 := stage1_rsqrt W
  have f0 := stage1_zero W
  have fb := stage1_bias W
  rw [hv4] at f5
  rw [h1] at f9 f12 f18 f19
  rw [h3] at fb
  generalize StableHlo.after hostOps1 W = W1 at f5 f9 f12 f18 f19 f0 fb ⊢
  simp only [hostOps1_1, hostOps1_2, List.cons_append, List.nil_append]
  after_results_simp
  rw [f5, f9, f12, f18, f19, f0, fb]
  simp only [TRef.ofBuf, TRef.toBuf, cast_eq]
  unfold Cert.Gcn.gcnTail Cert.Gcn.agg Cert.Gcn.msg Cert.Gcn.norm Cert.Gcn.dinv Cert.Gcn.wrap
  rfl

/-- The run, with the result read: every weakly fair execution of @main terminates with the result buffer at the
    aggregation of column 0 of the region's output and the four arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v56)
          = Cert.Gcn.gcnTail (hcol m c) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v56 (Pipeline.mem_restRefs_of main_v56 (by decide) (by decide))).trans (kernel_result m c),
      args_kept m r h c⟩) (run_main m ρ)

end Cert.KernelIdeal.Frame

end
-- ==== Proof.Mat.lean ====
/-
  The two arrays the matrix unit works on, as functions of the arguments.

  The kernel's program pads the 1 x 512 weight W to a 128 x 512 array of zeros whose row 0 is W, and transposes it:
  `wpad W` is that 512 x 128 array, whose column 0 is W's one row and whose other columns are zero. The region
  multiplies x, 2000 rows at a time, by it: over the extended reals the 100000 x 128 array it leaves is
  `prodArr x w`, entry (r, q) the sum over k of x (r, k) * w (k, q), with no trace of the tiling.
-/
import proofs.«177291_j58248346468474_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Gen

/-- The padded, transposed weight: W written over row 0 of a 128 x 512 array of zeros (one scatter at the start
    index 0, its window the whole of W), then the two axes exchanged. -/
def wpad {F : FTy → Type} [FloatOps F] (W : (⟨S1x512, .f32⟩ : BufTy).Contents (Elt F)) : (⟨S512x128, .f32⟩ : BufTy).Contents (Elt F) :=
  transpose S512x128 [1, 0]
    (Host.scatter scatter_S128x512_S1_S1x512_01_n_0_0 (fun _ b => b)
      (broadcastInDim S128x512 ![] bcast_S_S128x512 (constant (F := F) S_ .f32 0x00000000#32))
      (broadcastInDim S1 ![] bcast_S_S1 (constantI S_ 32 0#32)) W)
    transposes_S128x512_S512x128_1_0

/-- Row `i 0` of x, column `k`. -/
abbrev xIdx (i : S100000x128.Idx) (k : Fin 512) : S100000x512.Idx := fun a => match a with
  | ⟨0, _⟩ => ⟨(i 0).val, (i 0).isLt⟩
  | ⟨1, _⟩ => ⟨k.val, k.isLt⟩
/-- Row `k` of the weight, column `i 1`. -/
abbrev wIdx (i : S100000x128.Idx) (k : Fin 512) : S512x128.Idx := fun a => match a with
  | ⟨0, _⟩ => ⟨k.val, k.isLt⟩
  | ⟨1, _⟩ => ⟨(i 1).val, (i 1).isLt⟩

/-- The product of x by a 512 x 128 matrix over the extended reals, entry by entry. -/
def prodArr (x : S100000x512.Idx → EReal) (w : S512x128.Idx → EReal) : S100000x128.Idx → EReal :=
  fun i => ∑ k : Fin 512, x (xIdx i k) * w (wIdx i k)

end Cert.Gcn

end
-- ==== Proof.BlockProduct.lean ====
/-
  One block of the region's product, read at an element.

  At a grid point the body multiplies its 2000 x 512 block of x by the 512 x 128 weight on the matrix unit, after
  narrowing both to bf16 (at the extended reals a change of float format is the identity, and so is a shape cast to
  the same shape), into an accumulator of zeros: entry (p, q) of what it stores is the sum over k of
  x0 (p, k) * x1 (k, q).
-/
import proofs.«177291_j58248346468474_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx Cert.KernelIdeal Cert.KernelIdeal.Gen

/-- Row `j 0` of the block of x, column `k`. -/
abbrev bxIdx (j : S2000x128.Idx) (k : Fin 512) : S2000x512.Idx := fun a => match a with
  | ⟨0, _⟩ => ⟨(j 0).val, (j 0).isLt⟩
  | ⟨1, _⟩ => ⟨k.val, k.isLt⟩
/-- Row `k` of the weight, column `j 1`. -/
abbrev bwIdx (j : S2000x128.Idx) (k : Fin 512) : S512x128.Idx := fun a => match a with
  | ⟨0, _⟩ => ⟨k.val, k.isLt⟩
  | ⟨1, _⟩ => ⟨(j 1).val, (j 1).isLt⟩

/-- On the block of x the row axis is not contracted: the left operand's row is the output's row. -/
theorem lhs_pay_0 (j : S2000x128.Idx) (q : dot_S2000x512_S512x128_S2000x128_1_0_0_1_n_n.contr.Idx) :
    (dot_S2000x512_S512x128_S2000x128_1_0_0_1_n_n.lhsIdx j q 0).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The column axis of the block of x is the one contracted axis: the left operand's column is the contraction index. -/
theorem lhs_pay_1 (j : S2000x128.Idx) (q : dot_S2000x512_S512x128_S2000x128_1_0_0_1_n_n.contr.Idx) :
    (dot_S2000x512_S512x128_S2000x128_1_0_0_1_n_n.lhsIdx j q 1).val = (q ⟨0, by decide⟩).val :=
  dot_S2000x512_S512x128_S2000x128_1_0_0_1_n_n.lhsIdx_val_of_single rfl j q
/-- The row axis of the weight is the one contracted axis: the right operand's row is the contraction index. -/
theorem rhs_pay_0 (j : S2000x128.Idx) (q : dot_S2000x512_S512x128_S2000x128_1_0_0_1_n_n.contr.Idx) :
    (dot_S2000x512_S512x128_S2000x128_1_0_0_1_n_n.rhsIdx j q 0).val = (q ⟨0, by decide⟩).val :=
  dot_S2000x512_S512x128_S2000x128_1_0_0_1_n_n.rhsIdx_val_of_single rfl j q
/-- On the weight the column axis is not contracted: the right operand's column is the output's column. -/
theorem rhs_pay_1 (j : S2000x128.Idx) (q : dot_S2000x512_S512x128_S2000x128_1_0_0_1_n_n.contr.Idx) :
    (dot_S2000x512_S512x128_S2000x128_1_0_0_1_n_n.rhsIdx j q 1).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The stored block at an element: the row of the x block against the column of the weight. -/
theorem pay_apply (x0 : Vec Ideal S2000x512 .f32) (x1 : Vec Ideal S512x128 .f32) (j : S2000x128.Idx) :
    k0_pay1 (F := Ideal) x0 x1 j = ∑ k : Fin 512, x0 (bxIdx j k) * x1 (bwIdx j k) := by
  unfold k0_pay1
  -- a shape cast to the same shape changes nothing
  rw [shapeCast_self]
  simp only [matmul]
  -- into an accumulator of zeros the product is the sum over the contraction index; that index has one axis of
  -- size 512, so the sum runs over `Fin 512`
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = bxIdx j k := funext fun a => Fin.ext (by
    match a with
    | ⟨0, _⟩ => exact lhs_pay_0 _ _
    | ⟨1, _⟩ => exact (lhs_pay_1 _ _).trans hk)
  have er : dot_S2000x512_S512x128_S2000x128_1_0_0_1_n_n.rhsIdx j ((ValueIdx.contrEquiv1 dot_S2000x512_S512x128_S2000x128_1_0_0_1_n_n 512 rfl rfl).symm k) = bwIdx j k := funext fun a => Fin.ext (by
    match a with
    | ⟨0, _⟩ => exact (rhs_pay_0 _ _).trans hk
    | ⟨1, _⟩ => exact rhs_pay_1 _ _)
  -- narrowing the float format is the identity on the extended reals
  rw [truncf_apply, truncf_apply, el, er]

end Cert.Gcn

end
-- ==== Proof.ProductArray.lean ====
/-
  The array the region leaves, as one function of the arguments, over the extended reals.

  Grid point t writes back rows 2000 t … 2000 t + 1999 of the output: the product of that block of rows of x by the
  whole padded weight (the weight's block index never moves). Entry (p, q) of the stored block is the sum over k of
  x (2000 t + p, k) * w (k, q) — entry (2000 t + p, q) of the product of the whole arrays — and the fifty blocks of
  rows tile the 100000 rows, so the array ends holding `prodArr x w`. The weight the region finds is the padded,
  transposed W that the six host operations before it build.
-/
import proofs.«177291_j58248346468474_1_alg».proof.Proof.FrameKI
import proofs.«177291_j58248346468474_1_alg».proof.Proof.Mat
import proofs.«177291_j58248346468474_1_alg».proof.Proof.BlockProduct
import Idealize.ShloMosaic.Lib.Pipeline.Value
import Idealize.ShloMosaic.Lib.StableHlo.Run

set_option maxRecDepth 16384

noncomputable section

namespace Cert.KernelIdeal.Frame

open Cert.KernelIdeal Cert.KernelIdeal.Gen Cert.Gcn
open Idealize.ShloMosaic Idealize.ShloMosaic.TcCoe Idealize.SL.Sem Idealize.ShloMosaic.StableHlo
open Idealize.ShloMosaic.Pipeline (Dat)

/-! ## The weight the region finds -/

/-- The six host operations before the region leave the padded, transposed weight in the region's second array. -/
theorem V_main_v3 {F : FTy → Type} [FloatOps F] (m : (ℓ : Loc nD τ sig) → Buf (Elt F) ℓ) (c : Dev nD) :
    (V m c main_v3 : S512x128.Idx → Elt F .f32) = wpad (m ((c.tc : Thread nD τ).loc main_arg2)) := by
  show StableHlo.after hostOps0 (fun b => m (c, b)) (Proc.devRef .tc main_v3) = _
  after_results
  rfl

/-! ## The output array -/

variable (m : (ℓ : Loc nD τ sig) → Buf (Elt Ideal) ℓ)

theorem hz : (![0, 0] : Fin 2 → Nat) = fun _ => 0 := funext fun a => by fin_cases a <;> rfl

/-- The printed index maps over the grid: x's block and the output's block are block row t, the weight's block is
    the whole weight. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 49
    ∧ win0_2.index t (1 : Fin 2) = 0 :=
  (by decide +kernel : ∀ t : Fin grid0.N, _)

/-- Every block row is some point's. -/
theorem idx_onto : ∀ (q0 : Fin 50), ∃ t : Fin cfg0.N, win0_2.index t = ![q0.val, 0] :=
  (by decide +kernel : ∀ (q0 : Fin 50), ∃ t : Fin grid0.N, win0_2.index t = ![q0.val, 0])

/-- What point t writes back is block t of the product of the arrays the region finds. -/
theorem flushed2_eq (c : Dev nD) (t : Fin cfg0.N) :
    (dats m 0 c).flushed 2 t = ((cfg0.win 2).blk t).view.read (Elt Ideal) (prodArr (V m c main_arg0) (V m c main_v3)) := by
  show (cfg0.win 2).cut (grid0.coords t) ((dats m 0 c).after 2 t) = _
  rw [after0_2]
  unfold prodBlock
  rw [View.canon_unit_zero hz]
  simp only [View.ld_unit_zero (S := S2000x512) hz, View.ld_unit_zero (S := S512x128) hz]
  obtain ⟨e0, e1, e2, e3, e4, e5⟩ := idx_facts t
  funext j
  show k0_pay1 (F := Ideal) (iblk m c 0 t) (iblk m c 1 t) j = prodArr (V m c main_arg0) (V m c main_v3) (((cfg0.win 2).blk t).view.emb j)
  refine (pay_apply (iblk m c 0 t) (iblk m c 1 t) j).trans ?_
  unfold prodArr
  refine Finset.sum_congr rfl fun k _ => ?_
  have hx : iblk m c 0 t (bxIdx j k) = V m c main_arg0 (xIdx (((cfg0.win 2).blk t).view.emb j) k) := by
    show V m c main_arg0 (((cfg0.win 0).blk t).view.emb (bxIdx j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hw : iblk m c 1 t (bwIdx j k) = V m c main_v3 (wIdx (((cfg0.win 2).blk t).view.emb j) k) := by
    show V m c main_v3 (((cfg0.win 1).blk t).view.emb (bwIdx j k)) = _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [hx, hw]

/-- An index of the array is in point t's block iff each coordinate is in the block's range on its axis. -/
theorem mem_blk2 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row r lies in block row r / 2000: the blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the run is the product of x by the padded, transposed weight. -/
theorem final2 (c : Dev nD) :
    ((dats m 0 c).arrAt 2 cfg0.N : S100000x128.Idx → EReal)
      = prodArr (m ((c.tc : Thread nD τ).loc main_arg0)) (wpad (m ((c.tc : Thread nD τ).loc main_arg2))) := by
  have h := (dats m 0 c).arrAt_eq_of_cover 2 (prodArr (V m c main_arg0) (V m c main_v3)) (fun t _ => flushed2_eq m c t) covered
  rw [h, V_main_arg0, V_main_v3]

end Cert.KernelIdeal.Frame

end
-- ==== Proof.LibScatterAssign.lean ====
/-
  A scatter whose body returns the update (an assignment), read at one element.

  `Host.scatter d f x idx upd` folds, over the update's positions in row-major order, the step "if the update index
  lands inside the operand at element `i`, replace element `i` by `f` of it and the update's element". When `f`
  returns the update, the element at `i` after the fold is the update element of the LAST position that landed on
  `i`; so if every update index landing on `i` carries the same element as `j` does — in particular when `j` is the
  only one landing there — the scatter at `i` is `upd j`, whatever the operand held. If no update index lands on `i`
  the operand's element is unchanged. Where an update index lands is `ScatterDims.resultIdx?`: start plus window
  coordinate on every axis, when that is inside the operand (`resultIdx?_eq_some_iff`).
-/
import Idealize.ShloMosaic.PureOps.Ideal

namespace Cert.LibScatterAssign

open Idealize.ShloMosaic

/-- A left fold of assignment steps read at one element. The step is given by its two properties: a member `m` that
    lands on `k` (`land m = some k`) leaves `v m` at `k`, and leaves every element it does not land on as it was. If a
    member `n` of the list lands on `i` and every member landing on `i` carries the element `v n`, the fold at `i` is
    `v n`, whatever it started from. -/
theorem foldl_assign_apply {ν ι β : Type} (land : ν → Option ι) (v : ν → β) (step : (ι → β) → ν → ι → β)
    (hhit : ∀ r m k, land m = some k → step r m k = v m)
    (hmiss : ∀ r m k, land m ≠ some k → step r m k = r k)
    (x : ι → β) (l : List ν) (i : ι) (n : ν) (hn : n ∈ l) (hland : land n = some i)
    (hsame : ∀ m ∈ l, land m = some i → v m = v n) :
    (l.foldl step x) i = v n := by
  induction l using List.reverseRecOn with
  | nil => simp at hn
  | append_singleton t a ih =>
    rw [List.foldl_append, List.foldl_cons, List.foldl_nil]
    by_cases hai : land a = some i
    · rw [hhit _ a i hai]
      exact hsame a (by simp) hai
    · rw [hmiss _ a i hai]
      have hnt : n ∈ t := by
        rcases List.mem_append.1 hn with h | h
        · exact h
        · rw [List.mem_singleton.1 h] at hland; exact absurd hland hai
      exact ih hnt (fun m hm => hsame m (List.mem_append_left _ hm))

/-- The same fold at an element no member of the list lands on: it is the starting value there. -/
theorem foldl_assign_apply_of_not_landed {ν ι β : Type} (land : ν → Option ι) (step : (ι → β) → ν → ι → β)
    (hmiss : ∀ r m k, land m ≠ some k → step r m k = r k)
    (x : ι → β) (l : List ν) (i : ι) (hno : ∀ m ∈ l, land m ≠ some i) :
    (l.foldl step x) i = x i := by
  induction l using List.reverseRecOn with
  | nil => rfl
  | append_singleton t a ih =>
    rw [List.foldl_append, List.foldl_cons, List.foldl_nil, hmiss _ a i (hno a (by simp))]
    exact ih (fun m hm => hno m (List.mem_append_left _ hm))

variable {s si u : Shape} {α : Type} {w : Nat}

/-- Update index `j` lands on element `i` exactly when, on every operand axis, start plus window coordinate is
    `i`'s coordinate (being a coordinate of the operand, it is then in range). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hr =>
      have e := Option.some.inj h
      have ea : ((i a).val : Int) = ((d.start j idx a + (d.window j a : Int)).toNat : Int) := by rw [← e]
      have := hr a
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    refine congrArg some (funext fun a => Fin.ext ?_)
    show (d.start j idx a + (d.window j a : Int)).toNat = (i a).val
    have := h a
    omega

/-- The scatter's step leaves every element the update index does not land on as it was. -/
private theorem step_miss (d : ScatterDims s si u) (f : α → α → α) (idx : IVec si w) (upd : u.Idx → α)
    (r : s.Idx → α) (m : Fin u.numel) (k : s.Idx) (hk : d.resultIdx? (u.rowMajor.symm m) idx ≠ some k) :
    (match d.resultIdx? (u.rowMajor.symm m) idx with
      | some i => fun i' => if i' = i then f (r i) (upd (u.rowMajor.symm m)) else r i'
      | none => r) k = r k := by
  cases hres : d.resultIdx? (u.rowMajor.symm m) idx with
  | none => rfl
  | some i' =>
    have hne : k ≠ i' := fun e => hk (by rw [hres, e])
    show (if k = i' then _ else r k) = r k
    rw [if_neg hne]

/-- The scatter's step puts `f` of the element and the update's element where the update index lands. -/
private theorem step_hit (d : ScatterDims s si u) (f : α → α → α) (idx : IVec si w) (upd : u.Idx → α)
    (r : s.Idx → α) (m : Fin u.numel) (k : s.Idx) (hk : d.resultIdx? (u.rowMajor.symm m) idx = some k) :
    (match d.resultIdx? (u.rowMajor.symm m) idx with
      | some i => fun i' => if i' = i then f (r i) (upd (u.rowMajor.symm m)) else r i'
      | none => r) k = f (r k) (upd (u.rowMajor.symm m)) := by
  rw [hk]
  show (if k = k then _ else r k) = _
  rw [if_pos rfl]

/-- An assigning scatter (its body returns the update) at element `i`: if update index `j` lands on `i` and every
    update index landing on `i` carries the same element as `j`, the result at `i` is `upd j`. -/
theorem scatter_assign_apply_of_same (d : ScatterDims s si u) (x : s.Idx → α) (idx : IVec si w) (upd : u.Idx → α)
    (i : s.Idx) (j : u.Idx) (hj : d.resultIdx? j idx = some i)
    (hsame : ∀ j' : u.Idx, d.resultIdx? j' idx = some i → upd j' = upd j) :
    Host.scatter d (fun _ b => b) x idx upd i = upd j := by
  unfold Host.scatter
  have hjj : u.rowMajor.symm (u.rowMajor j) = j := u.rowMajor.symm_apply_apply j
  refine Eq.trans (foldl_assign_apply (fun n : Fin u.numel => d.resultIdx? (u.rowMajor.symm n) idx)
    (fun n => upd (u.rowMajor.symm n)) _ ?_ ?_ x _ i (u.rowMajor j) (List.mem_finRange _) ?_ ?_) ?_
  · intro r m k hk
    exact step_hit d (fun _ b => b) idx upd r m k hk
  · intro r m k hk
    exact step_miss d (fun _ b => b) idx upd r m k hk
  · show d.resultIdx? (u.rowMajor.symm (u.rowMajor j)) idx = some i
    rw [hjj]; exact hj
  · intro m _ hm
    show upd (u.rowMajor.symm m) = upd (u.rowMajor.symm (u.rowMajor j))
    rw [hjj]; exact hsame _ hm
  · show upd (u.rowMajor.symm (u.rowMajor j)) = upd j
    rw [hjj]

/-- An assigning scatter at element `i` when `j` is the ONLY update index landing on `i` (the landing map is
    injective there): the result at `i` is `upd j`. -/
theorem scatter_assign_apply (d : ScatterDims s si u) (x : s.Idx → α) (idx : IVec si w) (upd : u.Idx → α)
    (i : s.Idx) (j : u.Idx) (hj : d.resultIdx? j idx = some i)
    (hinj : ∀ j' : u.Idx, d.resultIdx? j' idx = some i → j' = j) :
    Host.scatter d (fun _ b => b) x idx upd i = upd j :=
  scatter_assign_apply_of_same d x idx upd i j hj (fun j' h => by rw [hinj j' h])

/-- An assigning scatter at an element no update index lands on: the operand's element. -/
theorem scatter_assign_apply_of_not_landed (d : ScatterDims s si u) (x : s.Idx → α) (idx : IVec si w) (upd : u.Idx → α)
    (i : s.Idx) (hno : ∀ j' : u.Idx, d.resultIdx? j' idx ≠ some i) :
    Host.scatter d (fun _ b => b) x idx upd i = x i := by
  unfold Host.scatter
  refine foldl_assign_apply_of_not_landed (fun n : Fin u.numel => d.resultIdx? (u.rowMajor.symm n) idx) _ ?_
    x (List.finRange u.numel) i (fun m _ => hno _)
  intro r m k hk
  exact step_miss d (fun _ b => b) idx upd r m k hk

end Cert.LibScatterAssign
-- ==== Proof.PaddedWeight.lean ====
/-
  Column 0 of the padded, transposed weight is W's one row.

  The padded weight is one assigning scatter of W (1 x 512) into a 128 x 512 array of zeros at the constant start
  index 0, its window the whole of W: update index (0, c) lands on element (0 + 0, c), so the landing map is injective
  and element (0, k) of the result is W (0, k). The transpose exchanges the two axes: entry (k, 0) of the 512 x 128
  array is entry (0, k) of the padded one.
-/
import proofs.«177291_j58248346468474_1_alg».proof.Proof.Mat
import proofs.«177291_j58248346468474_1_alg».proof.Proof.LibScatterAssign
import Idealize.ShloMosaic.Lib.Pipeline.Value

noncomputable section

namespace Cert.Gcn

open Idealize.ShloMosaic Idealize.ShloMosaic.ValueIdx Cert.KernelIdeal Cert.KernelIdeal.Gen

/-- Entry (k, 0) of the 512 x 128 weight. -/
abbrev wcol0 (k : Fin 512) : S512x128.Idx := fun a => match a with
  | ⟨0, _⟩ => ⟨k.val, k.isLt⟩
  | ⟨1, _⟩ => (0 : Fin 128)
/-- Entry (0, k) of W. -/
abbrev wrow (k : Fin 512) : S1x512.Idx := fun a => match a with
  | ⟨0, _⟩ => (0 : Fin 1)
  | ⟨1, _⟩ => ⟨k.val, k.isLt⟩

/-- Entry (0, k) of the 128 x 512 padded weight before the transpose. -/
private abbrev prow (k : Fin 512) : S128x512.Idx := fun a => match a with
  | ⟨0, _⟩ => (0 : Fin 128)
  | ⟨1, _⟩ => ⟨k.val, k.isLt⟩

/-- The scatter's one start index is the constant 0 on every axis: axis 0 reads the index word 0 (signed: 0), axis 1
    is not named by the map. -/
private theorem scat_start (j : S1x512.Idx) (a : Fin S128x512.rank) :
    scatter_S128x512_S1_S1x512_01_n_0_0.start j
      (broadcastInDim S1 ![] bcast_S_S1 (constantI S_ 32 0#32)) a = 0 := by
  unfold ScatterDims.start
  split
  · rfl
  · rfl

/-- The window is the whole update: on each operand axis the window coordinate is the update index's own. -/
private theorem scat_window0 (j : S1x512.Idx) : scatter_S128x512_S1_S1x512_01_n_0_0.window j (0 : Fin 2) = (j 0).val := by
  unfold ScatterDims.window
  rw [dif_pos (show (0 : Fin S128x512.rank) ∈ scatter_S128x512_S1_S1x512_01_n_0_0.sKept by decide)]
  rfl
/-- The same on axis 1. -/
private theorem scat_window1 (j : S1x512.Idx) : scatter_S128x512_S1_S1x512_01_n_0_0.window j (1 : Fin 2) = (j 1).val := by
  unfold ScatterDims.window
  rw [dif_pos (show (1 : Fin S128x512.rank) ∈ scatter_S128x512_S1_S1x512_01_n_0_0.sKept by decide)]
  rfl

/-- The scatter wrote W over row 0 and the transpose turned that row into column 0. -/
theorem wpad_col0 {F : FTy → Type} [FloatOps F] (W : (⟨S1x512, .f32⟩ : BufTy).Contents (Elt F)) (k : Fin 512) :
    wpad W (wcol0 k) = W (wrow k) := by
  unfold wpad
  -- the transpose at (k, 0) reads the padded weight at (0, k)
  rw [transpose_apply [1, 0] _ transposes_S128x512_S512x128_1_0 (wcol0 k) (prow k) (fun b => match b with
    | ⟨0, _⟩ => rfl
    | ⟨1, _⟩ => rfl)]
  -- update index (0, k) lands on element (0, k), and it is the only one that does
  refine Cert.LibScatterAssign.scatter_assign_apply _ _ _ W (prow k) (wrow k) ?_ ?_
  · rw [Cert.LibScatterAssign.resultIdx?_eq_some_iff]
    intro a
    rw [scat_start]
    match a with
    | ⟨0, _⟩ => rw [show (⟨0, by decide⟩ : Fin S128x512.rank) = (0 : Fin 2) from rfl, scat_window0]; exact Int.zero_add _
    | ⟨1, _⟩ => rw [show (⟨1, by decide⟩ : Fin S128x512.rank) = (1 : Fin 2) from rfl, scat_window1]; exact Int.zero_add _
  · intro j' hj'
    rw [Cert.LibScatterAssign.resultIdx?_eq_some_iff] at hj'
    have h0 := hj' (0 : Fin 2)
    have h1 := hj' (1 : Fin 2)
    rw [scat_start, scat_window0] at h0
    rw [scat_start, scat_window1] at h1
    funext a
    match a with
    | ⟨0, _⟩ =>
      apply Fin.ext
      have e : ((prow k (0 : Fin 2)).val : Int) = 0 := rfl
      show (j' 0).val = 0
      omega
    | ⟨1, _⟩ =>
      apply Fin.ext
      have e : ((prow k (1 : Fin 2)).val : Int) = (k.val : Int) := rfl
      show (j' 1).val = k.val
      omega

end Cert.Gcn

end
-- ==== Proof.Bridge.lean ====
/-
  Column 0 of the kernel's product array is the reference's projection.

  Entry (r, 0) of x times the padded, transposed weight is the sum over k of x (r, k) * wpad (k, 0), and column 0 of
  the padded weight is W's one row: the sum over k of x (r, k) * W (0, k). The reference's x · Wᵀ at (r, 0) is the
  `dot_general` of x with the transposed W, the same sum term by term. No law of the extended reals is used beyond
  reading both sides at an element.
-/
import proofs.«177291_j58248346468474_1_alg».proof.Proof.Mat
import proofs.«177291_j58248346468474_1_alg».proof.Proof.RefTail
import proofs.«177291_j58248346468474_1_alg».proof.Proof.RefReadP
import Idealize.ShloMosaic.Lib.Pipeline.Value
import Idealize.ShloMosaic.Lib.ValueIdx

noncomputable section

namespace Cert.Gcn

open Idealize.ShloMosaic Idealize.ShloMosaic.ValueIdx

/-- Column 0 of the product array, given that column 0 of the padded weight is W's row (`hcol`), is x · Wᵀ. -/
theorem proj_eq (x : (⟨Cert.KernelIdeal.S100000x512, .f32⟩ : BufTy).Contents (Elt Ideal))
    (W : (⟨Cert.KernelIdeal.S1x512, .f32⟩ : BufTy).Contents (Elt Ideal))
    (hcol : ∀ k : Fin 512,
      wpad W (fun a => match a with | ⟨0, _⟩ => ⟨k.val, k.isLt⟩ | ⟨1, _⟩ => (0 : Fin 128))
        = W (fun a => match a with | ⟨0, _⟩ => (0 : Fin 1) | ⟨1, _⟩ => ⟨k.val, k.isLt⟩)) :
    extractStridedSlice Cert.KernelIdeal.S100000x1 ![0, 0] (prodArr x (wpad W)) Cert.KernelIdeal.Gen.slices_S100000x128_S100000x1_0_0
      = refProj (F := Ideal) x W := by
  funext i
  -- the slice keeps column 0: its element at row r is the product array's entry (r, 0)
  rw [extractStridedSlice_apply ![0, 0] (prodArr x (wpad W)) Cert.KernelIdeal.Gen.slices_S100000x128_S100000x1_0_0 i
    (fun a => match a with
      | ⟨0, _⟩ => ⟨(i 0).val, (i 0).isLt⟩
      | ⟨1, _⟩ => (0 : Fin 128))
    (fun a => match a with
      | ⟨0, _⟩ => by show (i 0).val = 0 + (i 0).val; omega
      | ⟨1, _⟩ => by have h1 : (i 1).val < 1 := (i 1).isLt; show 0 = 0 + (i 1).val; omega)]
  -- the reference's projection at row r: the sum over k of x (r, k) times the transposed weight at (k, 0)
  show _ = Cert.ReferenceIdeal.ReadP.val_main_v1 (F := Ideal) x W i
  rw [Cert.ReferenceIdeal.ReadP.val_main_v1_apply]
  unfold prodArr
  refine Finset.sum_congr rfl fun k _ => ?_
  rw [Cert.ReferenceIdeal.ReadP.val_main_v0_apply]
  -- factor by factor: x is read at (r, k) on both sides; the padded weight is read at (k, 0), where it is W at (0, k)
  -- by hypothesis, and the transposed weight at (k, 0) is W at (0, k) as well (the slice's one column is column 0)
  refine congrArg₂ (· * ·) (congrArg x (funext fun a => Fin.ext ?_)) ?_
  · match a with
    | ⟨0, _⟩ => rfl
    | ⟨1, _⟩ => rfl
  · refine Eq.trans (congrArg (wpad W) (funext fun a => Fin.ext ?_)) ((hcol k).trans (congrArg W (funext fun a => Fin.ext ?_)))
    · match a with
      | ⟨0, _⟩ => rfl
      | ⟨1, _⟩ => rfl
    · match a with
      | ⟨0, _⟩ => have h1 : (i 1).val < 1 := (i 1).isLt; show 0 = (i 1).val; omega
      | ⟨1, _⟩ => rfl

end Cert.Gcn

end
-- ==== Proof.lean ====
/-
  A graph-convolution layer with one output feature: out = sigmoid (Â (x Wᵀ) + b), Â the adjacency of the edge
  list with self loops, normalised by the inverse square roots of the target degrees on both sides.

  The reference computes the projection x Wᵀ by one `dot_general` and then aggregates. The kernel pads W to 128
  output columns (zeros but for row 0), multiplies x by the transposed padded weight in a pipelined region, 2000
  rows at a time on the matrix unit with bf16 operands, keeps column 0, and then runs the very same aggregation.
  Over the extended reals a change of float format is the identity, a matrix product into a zero accumulator is the
  plain sum of products, and column 0 of the padded weight is W: so column 0 of the region's output is x Wᵀ entry by
  entry (`Cert.Gcn.proj_eq` over `Cert.KernelIdeal.Frame.final2` and `Cert.Gcn.wpad_col0`), and the two programs
  apply ONE function, `Cert.Gcn.gcnTail`, to equal columns, the same edge list and the same bias. The aggregation
  is never opened, and finiteness of the inputs is never used.

  The three frames: the kernel's program at both instances is six host operations, the region, and sixty-seven host
  operations that write only their own result buffers (`Frame.frame`); the reference is a straight line of host
  operations, its frame its run with the result dropped. The idealization rewrote nothing.
-/
import proofs.«177291_j58248346468474_1_alg».proof.Defs
import proofs.«177291_j58248346468474_1_alg».proof.Proof.Gen.Kernel
import proofs.«177291_j58248346468474_1_alg».proof.Proof.Gen.KernelIdeal
import proofs.«177291_j58248346468474_1_alg».proof.Proof.Gen.ReferenceIdeal
import proofs.«177291_j58248346468474_1_alg».proof.Proof.Gen.Pre_finite_inputs
import proofs.«177291_j58248346468474_1_alg».proof.Proof.FrameK
import proofs.«177291_j58248346468474_1_alg».proof.Proof.FrameKI
import proofs.«177291_j58248346468474_1_alg».proof.Proof.RefRunP
import proofs.«177291_j58248346468474_1_alg».proof.Proof.RefTail
import proofs.«177291_j58248346468474_1_alg».proof.Proof.KernelTail
import proofs.«177291_j58248346468474_1_alg».proof.Proof.ProductArray
import proofs.«177291_j58248346468474_1_alg».proof.Proof.PaddedWeight
import proofs.«177291_j58248346468474_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Column 0 of the array the region leaves is the reference's projection of the same arguments. -/
theorem column_eq (m : (ℓ : Loc Cert.KernelIdeal.nD Cert.KernelIdeal.τ Cert.KernelIdeal.sig) → Buf (Elt Ideal) ℓ) (c : Dev Cert.KernelIdeal.nD) :
    Cert.KernelIdeal.Frame.hcol m c
      = Cert.Gcn.refProj (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  unfold Cert.KernelIdeal.Frame.hcol
  rw [Cert.KernelIdeal.Frame.final2]
  exact Cert.Gcn.proj_eq _ _ (fun k => Cert.Gcn.wpad_col0 _ k)

theorem algebraic : Cert.algebraic_KernelIdeal_ReferenceIdeal := by
  intro m ρ m' ρ' _ hagree
  refine ⟨fun c => Cert.Gcn.gcnTail
      (Cert.Gcn.refProj (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Frame.run_value (F := Ideal) m ρ)
    rw [column_eq]
  · refine (θ_run Cert.ReferenceIdeal.defs _ _).mono (fun _ h c => ⟨(h c).1.trans ?_, (h c).2⟩)
      (Cert.ReferenceIdeal.ValueP.run (F := Ideal) m' ρ')
    rw [Cert.Gcn.ref_result, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
